-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : FVec F S16384x4096 .f32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩
abbrev S4x2048x16384 : Shape := ⟨3, ![4, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S1x16384, .f32⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S512x2048, .f32⟩
  | .local _ .vmem, ⟨1, _⟩ => ⟨S512x2048, .f32⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 16, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S16384_S1x16384 : S16384.ShapeCasts S1x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x16384_S4x2048x16384 : S8192x16384.ShapeCasts S4x2048x16384
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .f32 = 32 ∨ (Rect.block (s := S8192x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x4096.size a
  hwx0_1 : ∀ i : grid0.Coords, EltTy.bits .f32 = 32 ∨ (Rect.block (s := S16384x4096) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x16384.size a
  hwx0_4 : ∀ i : grid0.Coords, EltTy.bits .f32 = 32 ∨ (Rect.block (s := S8192x16384) S512x1024.size (cc0_transform_4 i) (hinb0_4 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384, .f32⟩
  | .hbm, ⟨4, _⟩ => ⟨S16384x1, .f32⟩
  | .hbm, ⟨5, _⟩ => ⟨S16384x4096, .f32⟩
  | .hbm, ⟨6, _⟩ => ⟨S16384x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.FiniteInputs.lean ====
/-
  What the precondition says: every entry of every input is a real number.

  The precondition is the conjunction of four `jnp.all(|a| < +∞)`, one per input. Each `jnp.all` is a reduction
  by `and` of a one-bit array from the constant 1 into a single bit, and the four bits are joined by `and`; the claim
  hands us that the joint bit is 1. So each reduction came out 1, so each array of comparison bits is 1 everywhere,
  and an extended real whose absolute value `max x (-x)` lies strictly below `+∞` (the word `0x7F800000`) is neither
  `+∞` nor `-∞`: it is the coercion of a real.
-/
import proofs.«102938_j26182120637007_1_alg».proof.Pre_finite_inputs
import Idealize.ShloMosaic.Lib.ReduceAll
import Idealize.ShloMosaic.Lib.ValueIdx
import Idealize.ShloMosaic.PureOps.Ideal

namespace Cert.FiniteInputs

open Idealize.ShloMosaic Cert.Pre_finite_inputs

/-- The scalar shape has one index. -/
instance : Subsingleton S_.Idx := ⟨fun a b => funext fun d => d.elim0⟩

/-- An extended real whose absolute value is strictly below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- Under the precondition at the ideal instance, every entry of each of the four inputs is a real number. -/
theorem all_real (a0 : FVec Ideal S4x2048x4096 .f32) (a1 : FVec Ideal S16384x4096 .f32)
    (a2 a3 : FVec Ideal S16384 .f32) (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt_inf _ (Host.reduce_andi_all _ _ _ _ _ h0' i)
  · exact real_of_abs_lt_inf _ (Host.reduce_andi_all _ _ _ _ _ h1 i)
  · exact real_of_abs_lt_inf _ (Host.reduce_andi_all _ _ _ _ _ h2 i)
  · exact real_of_abs_lt_inf _ (Host.reduce_andi_all _ _ _ _ _ h3 i)

end Cert.FiniteInputs
-- ==== Proof.BodyPieces.lean ====
/-
  What the kernel body leaves behind at one grid point, as values, for any float instance.

  The grid is 16 × 16 × 2; the last axis walks the two halves of the contracted axis. At a point of the first half
  the body zeroes the 512 × 1024 scratch accumulator, reads it back, and stores `0 + x · wᵀ` into it; nothing goes to
  the output block. At a point of the second half it stores `acc + x · wᵀ` into the scratch, reads that back, and
  stores `(acc + x · wᵀ) · scale + bias` into the output block. Every load and store goes through the whole buffer,
  so what a buffer holds after the body is the value of its last store, and a read of the scratch after a store to
  it in the same run is the stored value.
-/
import proofs.«102938_j26182120637007_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.BodyPieces

open Cert.KernelIdeal Cert.KernelIdeal.Gen

variable {F : FTy → Type} [FloatOps F]

/-- The offsets of every load and store of the body: zero on both axes. -/
theorem hz : (![0, 0] : Fin 2 → Nat) = fun _ => 0 := funext fun a => by fin_cases a <;> rfl

/-- FIRST HALF: the scratch ends at the accumulation over the freshly stored zeros. -/
theorem scratch_first_half (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : cond0_0 i) (hc1 : ¬cond0_1 i) (x0 : Vec F S512x2048 .f32) (x1 : Vec F S1024x2048 .f32) (x2 : Vec F S1x1024 .f32) (x3 : Vec F S1x1024 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) hz]
  simp only [View.readAt_eq_ld, h3.read_unread, h4.read_unread, h5.read_unread, h6.read_unread, h8.read_unread, View.ld_unit_zero (S := S512x2048) hz, View.ld_unit_zero (S := S1024x2048) hz, View.ld_unit_zero (S := S1x1024) hz, View.ld_unit_zero (S := S512x1024) hz, View.readCov_unit_zero (S := S512x1024) _ hz]

/-- SECOND HALF: the scratch ends at the accumulation over what the point before left in it. -/
theorem scratch_second_half (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x2048 .f32) (x1 : Vec F S1024x2048 .f32) (x2 : Vec F S1x1024 .f32) (x3 : Vec F S1x1024 .f32) (xs0 : Vec F S512x1024 .f32) :
    sout0_B_0 c i a3 h3 a4 h4 a5 h5 a6 h6 a7 h7 a8 h8 hc0 hc1 x0 x1 x2 x3 xs0 = k0_pay2 x0 x1 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h8.read_unread, View.ld_unit_zero (S := S512x2048) hz, View.ld_unit_zero (S := S1024x2048) hz, View.ld_unit_zero (S := S1x1024) hz, View.ld_unit_zero (S := S512x1024) hz, View.readCov_unit_zero (S := S512x1024) _ hz]

/-- SECOND HALF: the output block ends at the finishing step applied to that accumulation. -/
theorem output_second_half (c : Dev nD) (i : grid0.Coords) (a3 : Memref sig .tc .vmem S512x2048 .f32) (h3 : a3.IsWhole) (a4 : Memref sig .tc .vmem S1024x2048 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i) (x0 : Vec F S512x2048 .f32) (x1 : Vec F S1024x2048 .f32) (x2 : Vec F S1x1024 .f32) (x3 : Vec F S1x1024 .f32) (xs0 : Vec F S512x1024 .f32) :
    out0_B_4 c i a3 h3 a4 h4 a5 h5 a6 h6 a7 h7 a8 h8 hc0 hc1 x0 x1 x2 x3 xs0 = k0_pay3 (k0_pay2 x0 x1 xs0) x2 x3 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h6.read_unread, h8.read_unread, View.ld_unit_zero (S := S512x2048) hz, View.ld_unit_zero (S := S1024x2048) hz, View.ld_unit_zero (S := S1x1024) hz, View.ld_unit_zero (S := S512x1024) hz, View.readCov_unit_zero (S := S512x1024) _ hz]

end Cert.KernelIdeal.BodyPieces

end
-- ==== Proof.BodyValues.lean ====
/-
  The kernel body's three stored values, each read at one entry of its 512 × 1024 block, at the ideal instance.

  * the reset stores zero everywhere;
  * the accumulation stores `acc + x · wᵀ`: entry (p, q) is `acc (p, q)` plus the sum over the 2048 positions `k`
    of the block's contracted axis of `x (p, k) · w (q, k)` — both operands are contracted along their SECOND axis,
    so the weight block is read by rows, not transposed first; the narrowing of both operands to bf16 before the
    product is the identity on extended reals, and the product into a zero accumulator is the bare sum;
  * the last step stores `acc · scale + bias` with the 1 × 1024 scale and bias rows repeated down the 512 rows: entry
    (p, q) is `acc (p, q) · scale (0, q) + bias (0, q)`.
-/
import proofs.«102938_j26182120637007_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-- The reset's value is zero at every entry. -/
theorem reset_apply (j : S512x1024.Idx) : k0_pay1 (F := Ideal) j = 0 := by
  unfold k0_pay1
  rw [shapeCast_self]
  exact Ideal.ofBits_zero_f32

/-! The product's dimension numbers, axis by axis: the left operand is read at (row of the output, contracted
position), the right operand at (column of the output, contracted position). -/

theorem lhs_row (j : S512x1024.Idx) (q : dot_S512x2048_S1024x2048_S512x1024_1_1_0_0_n_n.contr.Idx) :
    (dot_S512x2048_S1024x2048_S512x1024_1_1_0_0_n_n.lhsIdx j q 0).val = (j 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_contracted (j : S512x1024.Idx) (q : dot_S512x2048_S1024x2048_S512x1024_1_1_0_0_n_n.contr.Idx) :
    (dot_S512x2048_S1024x2048_S512x1024_1_1_0_0_n_n.lhsIdx j q 1).val = (q ⟨0, by decide⟩).val :=
  dot_S512x2048_S1024x2048_S512x1024_1_1_0_0_n_n.lhsIdx_val_of_single rfl j q
theorem rhs_row (j : S512x1024.Idx) (q : dot_S512x2048_S1024x2048_S512x1024_1_1_0_0_n_n.contr.Idx) :
    (dot_S512x2048_S1024x2048_S512x1024_1_1_0_0_n_n.rhsIdx j q 0).val = (j 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_contracted (j : S512x1024.Idx) (q : dot_S512x2048_S1024x2048_S512x1024_1_1_0_0_n_n.contr.Idx) :
    (dot_S512x2048_S1024x2048_S512x1024_1_1_0_0_n_n.rhsIdx j q 1).val = (q ⟨0, by decide⟩).val :=
  dot_S512x2048_S1024x2048_S512x1024_1_1_0_0_n_n.rhsIdx_val_of_single rfl j q

/-- The product of an `x` block and a weight block into the zero accumulator, at entry (p, q): the sum over the
    contracted position `k` of `x (p, k) · w (q, k)`. -/
theorem product_apply (x : FVec Ideal S512x2048 .bf16) (w : FVec Ideal S1024x2048 .bf16) (p : Fin 512) (q : Fin 1024) :
    matmul dot_S512x2048_S1024x2048_S512x1024_1_1_0_0_n_n none x w (constant S512x1024 .f32 0x00000000#32) (ix2 p q)
      = ∑ k : Fin 2048, x (ix2 p k) * w (ix2 q k) := by
  simp only [matmul]
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p q) ((contrEquiv1 dot_S512x2048_S1024x2048_S512x1024_1_1_0_0_n_n 2048 rfl rfl).symm k) = ix2 p k := funext fun a => Fin.ext (by
    match a with
    | ⟨0, _⟩ => exact lhs_row _ _
    | ⟨1, _⟩ => exact (lhs_contracted _ _).trans hk)
  have er : dot_S512x2048_S1024x2048_S512x1024_1_1_0_0_n_n.rhsIdx (ix2 p q) ((contrEquiv1 dot_S512x2048_S1024x2048_S512x1024_1_1_0_0_n_n 2048 rfl rfl).symm k) = ix2 q k := funext fun a => Fin.ext (by
    match a with
    | ⟨0, _⟩ => exact rhs_row _ _
    | ⟨1, _⟩ => exact (rhs_contracted _ _).trans hk)
  rw [el, er]

/-- The accumulation's value at entry (p, q): the accumulator there plus the blocks' partial dot product. -/
theorem accumulate_apply (x : Vec Ideal S512x2048 .f32) (w : Vec Ideal S1024x2048 .f32) (acc : Vec Ideal S512x1024 .f32)
    (p : Fin 512) (q : Fin 1024) :
    k0_pay2 x w acc (ix2 p q) = acc (ix2 p q) + ∑ k : Fin 2048, x (ix2 p k) * w (ix2 q k) := by
  unfold k0_pay2
  rw [shapeCast_self, addf_apply, product_apply]
  simp only [truncf_apply, shapeCast_self]

/-- A 1 × 1024 row repeated down 512 rows reads, at (p, q), the row at (0, q). -/
theorem row_repeated_apply (s : FVec Ideal S1x1024 .f32) (p : Fin 512) (q : Fin 1024) :
    broadcastTo S512x1024 s broadcasts_S1x1024_S512x1024 (ix2 p q) = s (ix2 (0 : Fin 1) q) :=
  broadcastTo_apply s broadcasts_S1x1024_S512x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- The last step's value at entry (p, q): the accumulator there times the scale of column q, plus its bias. -/
theorem finish_apply (acc : Vec Ideal S512x1024 .f32) (s b : Vec Ideal S1x1024 .f32) (p : Fin 512) (q : Fin 1024) :
    k0_pay3 acc s b (ix2 p q) = acc (ix2 p q) * s (ix2 (0 : Fin 1) q) + b (ix2 (0 : Fin 1) q) := by
  unfold k0_pay3
  rw [addf_apply, mulf_apply, shapeCast_self, shapeCast_self, row_repeated_apply, row_repeated_apply]

end Cert.KernelIdeal.BodyValues

end
-- ==== Proof.Blocks.lean ====
/-
  Where each window's block sits in its array.

  The 512 grid points are the triples (i, j, h) in row-major order, h fastest: point t has i = t / 32,
  j = t / 2 % 16, h = t % 2. At point t the `x` window holds rows 512·i … of columns 2048·h …, the weight window rows
  1024·j … of columns 2048·h …, the scale and bias windows columns 1024·j … of their single row, and the output
  window rows 512·i …, columns 1024·j …. These closed forms are decided once over the 512 points; a block's entry is
  then its array's entry at block index × block size + the position inside the block, on each axis.
-/
import proofs.«102938_j26182120637007_1_alg».proof.Proof.Gen.KernelIdeal.Frame
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The five index maps at point t, in closed form. -/
theorem index_closed : ∀ t : Fin cfg0.N,
    win0_0.index t (0 : Fin 2) = t.val / 32 ∧ win0_0.index t (1 : Fin 2) = t.val % 2
    ∧ win0_1.index t (0 : Fin 2) = t.val / 2 % 16 ∧ win0_1.index t (1 : Fin 2) = t.val % 2
    ∧ win0_2.index t (0 : Fin 2) = 0 ∧ win0_2.index t (1 : Fin 2) = t.val / 2 % 16
    ∧ win0_3.index t (0 : Fin 2) = 0 ∧ win0_3.index t (1 : Fin 2) = t.val / 2 % 16
    ∧ win0_4.index t (0 : Fin 2) = t.val / 32 ∧ win0_4.index t (1 : Fin 2) = t.val / 2 % 16 :=
  (by decide +kernel : ∀ t : Fin grid0.N, _)

/-- The blocks the body loads at point t, and the arrays the region finds, each at its literal type. -/
abbrev xblk (c : Dev nD) (t : Fin cfg0.N) : Vec F S512x2048 .f32 := iblk m c 0 t
abbrev wblk (c : Dev nD) (t : Fin cfg0.N) : Vec F S1024x2048 .f32 := iblk m c 1 t
abbrev sblk (c : Dev nD) (t : Fin cfg0.N) : Vec F S1x1024 .f32 := iblk m c 2 t
abbrev bblk (c : Dev nD) (t : Fin cfg0.N) : Vec F S1x1024 .f32 := iblk m c 3 t
abbrev xarr (c : Dev nD) : Vec F S8192x4096 .f32 := V m c main_v0
abbrev warr (c : Dev nD) : Vec F S16384x4096 .f32 := V m c main_arg1
abbrev sarr (c : Dev nD) : Vec F S1x16384 .f32 := V m c main_v1
abbrev barr (c : Dev nD) : Vec F S1x16384 .f32 := V m c main_v2

/-- Entry (p, k) of the `x` block at point t is entry (r, kk) of the array, r and kk the block's offsets plus p and k. -/
theorem xblk_apply (c : Dev nD) (t : Fin cfg0.N) (p : Fin 512) (k : Fin 2048) (r : Fin 8192) (kk : Fin 4096)
    (hr : r.val = win0_0.index t (0 : Fin 2) * 512 + p.val) (hk : kk.val = win0_0.index t (1 : Fin 2) * 2048 + k.val) :
    xblk m c t (ix2 p k) = xarr m c (ix2 r kk) := by
  show V m c main_v0 (((cfg0.win 0).blk t).view.emb (ix2 p k)) = V m c main_v0 (ix2 r kk)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 2048 + 1 * k.val = kk.val; omega

/-- Entry (q, k) of the weight block at point t is entry (o, kk) of the weight. -/
theorem wblk_apply (c : Dev nD) (t : Fin cfg0.N) (q : Fin 1024) (k : Fin 2048) (o : Fin 16384) (kk : Fin 4096)
    (ho : o.val = win0_1.index t (0 : Fin 2) * 1024 + q.val) (hk : kk.val = win0_1.index t (1 : Fin 2) * 2048 + k.val) :
    wblk m c t (ix2 q k) = warr m c (ix2 o kk) := by
  show V m c main_arg1 (((cfg0.win 1).blk t).view.emb (ix2 q k)) = V m c main_arg1 (ix2 o kk)
  refine congrArg (V m c main_arg1) (funext fun a => Fin.ext ?_)
  match a with
  | ⟨0, _⟩ => show win0_1.index t (0 : Fin 2) * 1024 + 1 * q.val = o.val; omega
  | ⟨1, _⟩ => show win0_1.index t (1 : Fin 2) * 2048 + 1 * k.val = kk.val; omega

/-- Entry (0, q) of the scale block at point t is entry (0, o) of the scale row. -/
theorem sblk_apply (c : Dev nD) (t : Fin cfg0.N) (q : Fin 1024) (o : Fin 16384)
    (h0 : win0_2.index t (0 : Fin 2) = 0) (ho : o.val = win0_2.index t (1 : Fin 2) * 1024 + q.val) :
    sblk m c t (ix2 (0 : Fin 1) q) = sarr m c (ix2 (0 : Fin 1) o) := by
  show V m c main_v1 (((cfg0.win 2).blk t).view.emb (ix2 (0 : Fin 1) q)) = V m c main_v1 (ix2 (0 : Fin 1) o)
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- Entry (0, q) of the bias block at point t is entry (0, o) of the bias row. -/
theorem bblk_apply (c : Dev nD) (t : Fin cfg0.N) (q : Fin 1024) (o : Fin 16384)
    (h0 : win0_3.index t (0 : Fin 2) = 0) (ho : o.val = win0_3.index t (1 : Fin 2) * 1024 + q.val) :
    bblk m c t (ix2 (0 : Fin 1) q) = barr m c (ix2 (0 : Fin 1) o) := by
  show V m c main_v2 (((cfg0.win 3).blk t).view.emb (ix2 (0 : Fin 1) q)) = V m c main_v2 (ix2 (0 : Fin 1) o)
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * q.val = o.val; omega

end Cert.KernelIdeal.Blocks

end
-- ==== Proof.ScaleThroughSum.lean ====
/-
  The one law that joins the two programs, on the extended reals.

  The kernel accumulates a row of `x` against a row of the weight in two halves of the contracted axis, starting
  from zero, and only then multiplies by the output channel's scale and adds its bias; the reference scales the
  weight row first and contracts the whole axis in one sum. With every factor a REAL number the two agree: the
  scale is constant along the contracted axis, so it moves across the finite sum (distributivity), and the axis
  of length 4096 is its two halves of length 2048 side by side. On the extended reals distributivity fails at the
  infinities, which is why the factors are asked to be real: the statement is taken to the reals through the
  coercion, proved there, and brought back.
-/
import Idealize.ShloMosaic.PureOps.Ideal

open scoped BigOperators

namespace Cert.ScaleThroughSum

/-- The coercion of the reals into the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Over real factors: two partial dot products added to zero in turn, then scaled by `σ` and shifted by `β`, are
    the two dot products against the scaled second factors, shifted by `β`. -/
theorem two_parts_scaled {ι κ : Type*} [Fintype ι] [Fintype κ] (a₁ b₁ : ι → ℝ) (a₂ b₂ : κ → ℝ) (σ β : ℝ) :
    (((0 : EReal) + ∑ k, (a₁ k : EReal) * (b₁ k : EReal)) + ∑ k, (a₂ k : EReal) * (b₂ k : EReal)) * (σ : EReal) + (β : EReal)
      = ((∑ k, (a₁ k : EReal) * ((b₁ k : EReal) * (σ : EReal))) + ∑ k, (a₂ k : EReal) * ((b₂ k : EReal) * (σ : EReal)))
          + (β : EReal) := by
  simp only [← EReal.coe_mul, ← coe_sum, zero_add, ← EReal.coe_add]
  congr 1
  simp only [add_mul, Finset.sum_mul, mul_assoc]

/-- Position `k` of the first half of the contracted axis. -/
abbrev lo (k : Fin 2048) : Fin 4096 := ⟨k.val, by have := k.isLt; omega⟩
/-- Position `k` of the second half: 2048 places further. -/
abbrev hi (k : Fin 2048) : Fin 4096 := ⟨2048 + k.val, by have := k.isLt; omega⟩

/-- A sum over the 4096 positions is the sum over the first half plus the sum over the second. -/
theorem sum_halves {M : Type*} [AddCommMonoid M] (f : Fin 4096 → M) :
    ∑ k, f k = (∑ k : Fin 2048, f (lo k)) + ∑ k : Fin 2048, f (hi k) :=
  Fin.sum_univ_add (a := 2048) (b := 2048) f

/-- THE LAW. For a row `A` of `x`, a row `B` of the weight, a scale `s` and a bias `β`, all real: the kernel's
    `((0 + Σ_{first half} A·B) + Σ_{second half} A·B) · s + β` is the reference's `Σ_k A k · (B k · s) + β`. -/
theorem halves_then_scale_eq_scale_then_sum (A B : Fin 4096 → EReal) (s β : EReal)
    (hA : ∀ k, ∃ r : ℝ, A k = (r : EReal)) (hB : ∀ k, ∃ r : ℝ, B k = (r : EReal))
    (hs : ∃ r : ℝ, s = (r : EReal)) (hβ : ∃ r : ℝ, β = (r : EReal)) :
    ((0 + ∑ k : Fin 2048, A (lo k) * B (lo k)) + ∑ k : Fin 2048, A (hi k) * B (hi k)) * s + β
      = (∑ k : Fin 4096, A k * (B k * s)) + β := by
  choose a ha using hA
  choose b hb using hB
  obtain ⟨σ, rfl⟩ := hs
  obtain ⟨β', rfl⟩ := hβ
  obtain rfl : A = fun k => (a k : EReal) := funext ha
  obtain rfl : B = fun k => (b k : EReal) := funext hb
  rw [sum_halves]
  exact two_parts_scaled (fun k => a (lo k)) (fun k => b (lo k)) (fun k => a (hi k)) (fun k => b (hi k)) σ β'

end Cert.ScaleThroughSum
-- ==== Proof.ScaledLinear.lean ====
/-
  The result, entry by entry, in the two arrangements the programs compute it in, and their agreement.

  Inputs: `x` of shape 4 × 2048 × 4096, the weight of shape 16384 × 4096, a scale and a bias per output channel
  (16384 each). The result has shape 4 × 2048 × 16384.

  * The kernel's arrangement at (b, s, o): the dot product of `x[b, s, :]` with `weight[o, :]` taken over the first
    2048 positions and added to zero, then the same over the last 2048 positions added to that, the whole times
    `scale[o]`, plus `bias[o]`.
  * The reference's arrangement: the sum over all 4096 positions k of `x[b, s, k] · (weight[o, k] · scale[o])`, plus
    `bias[o]`.

  With every input entry a real number these are equal: the scale does not depend on k and moves across the sum.
-/
import proofs.«102938_j26182120637007_1_alg».proof.Proof.ScaleThroughSum
import Idealize.ShloMosaic.Lib.ValueIdx

noncomputable section

open scoped BigOperators

namespace Cert.ScaledLinear

open Idealize.ShloMosaic Idealize.ShloMosaic.ValueIdx Cert.ScaleThroughSum

abbrev SX : Shape := ⟨3, ![4, 2048, 4096]⟩
abbrev SW : Shape := ⟨2, ![16384, 4096]⟩
abbrev SV : Shape := ⟨1, ![16384]⟩
abbrev SO : Shape := ⟨3, ![4, 2048, 16384]⟩

/-- Entry (b, s, o) as the kernel arranges it: two half-length dot products accumulated from zero, then scale and bias. -/
def kernelEntry (x : SX.Idx → EReal) (w : SW.Idx → EReal) (sc bi : SV.Idx → EReal)
    (b : Fin 4) (s : Fin 2048) (o : Fin 16384) : EReal :=
  ((0 + ∑ k : Fin 2048, x (ix3 b s (lo k)) * w (ix2 o (lo k)))
      + ∑ k : Fin 2048, x (ix3 b s (hi k)) * w (ix2 o (hi k))) * sc (ix1 o) + bi (ix1 o)

/-- Entry (b, s, o) as the reference arranges it: one full-length dot product against the scaled weight row, then bias. -/
def referenceEntry (x : SX.Idx → EReal) (w : SW.Idx → EReal) (sc bi : SV.Idx → EReal)
    (b : Fin 4) (s : Fin 2048) (o : Fin 16384) : EReal :=
  (∑ k : Fin 4096, x (ix3 b s k) * (w (ix2 o k) * sc (ix1 o))) + bi (ix1 o)

/-- The whole result array, in the reference's arrangement. -/
def referenceArray (x : SX.Idx → EReal) (w : SW.Idx → EReal) (sc bi : SV.Idx → EReal) : SO.Idx → EReal :=
  fun i => referenceEntry x w sc bi (i 0) (i 1) (i 2)

/-- On real inputs the two arrangements give the same entry. -/
theorem kernelEntry_eq_referenceEntry (x : SX.Idx → EReal) (w : SW.Idx → EReal) (sc bi : SV.Idx → EReal)
    (hx : ∀ i, ∃ r : ℝ, x i = (r : EReal)) (hw : ∀ i, ∃ r : ℝ, w i = (r : EReal))
    (hsc : ∀ i, ∃ r : ℝ, sc i = (r : EReal)) (hbi : ∀ i, ∃ r : ℝ, bi i = (r : EReal))
    (b : Fin 4) (s : Fin 2048) (o : Fin 16384) :
    kernelEntry x w sc bi b s o = referenceEntry x w sc bi b s o :=
  halves_then_scale_eq_scale_then_sum (fun k => x (ix3 b s k)) (fun k => w (ix2 o k)) (sc (ix1 o)) (bi (ix1 o))
    (fun k => hx _) (fun k => hw _) (hsc _) (hbi _)

end Cert.ScaledLinear

end
-- ==== Proof.KernelValue.lean ====
/-
  The kernel's result array, at the ideal instance.

  An output block is written back only at the second point of each pair (the points t with t odd). What it holds
  then is the finishing step applied to the accumulation at t over the accumulation at t − 1 over zero: at entry
  (p, q), with the two `x` blocks being columns 0…2047 and 2048…4095 of rows 512·i + p, and the two weight blocks
  the same columns of weight rows 1024·j + q,
      ((0 + Σ_{k<2048} x[r, k]·w[o, k]) + Σ_{k<2048} x[r, 2048+k]·w[o, 2048+k]) · scale[o] + bias[o]
  for r = 512·i + p and o = 1024·j + q. That is ONE function of the array index (r, o); the odd points' blocks tile
  the 8192 × 16384 array, so the array ends holding that function everywhere. The reshapes around the call are
  re-indexings: row r of the 8192 × 4096 view of `x` is `x[r / 2048, r % 2048, :]`, and likewise for the result.
-/
import proofs.«102938_j26182120637007_1_alg».proof.Proof.BodyPieces
import proofs.«102938_j26182120637007_1_alg».proof.Proof.BodyValues
import proofs.«102938_j26182120637007_1_alg».proof.Proof.Blocks
import proofs.«102938_j26182120637007_1_alg».proof.Proof.ScaledLinear
import Idealize.ShloMosaic.Lib.Pipeline.Value
import Idealize.ShloMosaic.Lib.StableHlo.Run
import Idealize.ShloMosaic.Lib.ValueLayout

noncomputable section

open scoped BigOperators

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Blocks Cert.KernelIdeal.BodyPieces Cert.KernelIdeal.BodyValues
open Idealize.ShloMosaic.ValueIdx Cert.ScaleThroughSum

variable (m : (ℓ : Loc nD τ sig) → Buf (Elt Ideal) ℓ) (ρ : Dev nD → PrngReg)

/-- The grid point before t. -/
abbrev before (t : Fin cfg0.N) : Fin cfg0.N := ⟨t.val - 1, Nat.lt_of_le_of_lt (Nat.sub_le _ _) t.isLt⟩

/-- After a point of the first half the scratch holds zero plus that point's partial product. -/
theorem scratch_even (c : Dev nD) (t : Fin cfg0.N) (h0 : t.val % 2 = 0) :
    (outsAt0 m c t.val t.isLt).2 = k0_pay2 (xblk m c t) (wblk m c t) (k0_pay1 (F := Ideal)) := by
  have h1 : ¬t.val % 2 = 1 := by omega
  rw [outsAt0_A m c t h0 h1]
  dsimp only
  exact scratch_first_half (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a point of the second half the output block holds the finishing step of the two accumulations. -/
theorem output_odd (c : Dev nD) (t : Fin cfg0.N) (h1 : t.val % 2 = 1) :
    (outsAt0 m c t.val t.isLt).1
      = k0_pay3 (k0_pay2 (xblk m c t) (wblk m c t) (k0_pay2 (xblk m c (before t)) (wblk m c (before t)) (k0_pay1 (F := Ideal))))
          (sblk m c t) (bblk m c t) := by
  have h0 : ¬t.val % 2 = 0 := by omega
  rw [outsAt0_B m c t h0 h1]
  dsimp only
  refine (output_second_half (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
    (outsAt0 m c (t.val - 1) (Nat.lt_of_le_of_lt (Nat.sub_le _ _) t.isLt)).2).trans ?_
  exact congrArg (fun a => k0_pay3 (k0_pay2 (xblk m c t) (wblk m c t) a) (sblk m c t) (bblk m c t))
    (scratch_even m c (before t) (by show (t.val - 1) % 2 = 0; omega))

/-- Entry (r, o) of the 8192 × 16384 result, from the arrays the region finds. -/
def entry (X : S8192x4096.Idx → EReal) (W : S16384x4096.Idx → EReal) (S B : S1x16384.Idx → EReal)
    (r : Fin 8192) (o : Fin 16384) : EReal :=
  ((0 + ∑ k : Fin 2048, X (ix2 r (lo k)) * W (ix2 o (lo k)))
      + ∑ k : Fin 2048, X (ix2 r (hi k)) * W (ix2 o (hi k))) * S (ix2 (0 : Fin 1) o) + B (ix2 (0 : Fin 1) o)

/-- The whole 8192 × 16384 result as one function of its index. -/
def outArr (c : Dev nD) : S8192x16384.Idx → EReal :=
  fun i => entry (xarr m c) (warr m c) (sarr m c) (barr m c) (i 0) (i 1)

/-- WHAT AN ODD POINT WRITES BACK is its block of `outArr`. -/
theorem flushed_eq (c : Dev nD) (t : Fin cfg0.N) (hf : (cfg0.win 4).flush t = true) :
    (dats m 0 c).flushed 4 t = ((cfg0.win 4).blk t).view.read (Elt Ideal) (outArr m c) := by
  have h1 : t.val % 2 = 1 := (flush0_4 t).mp hf
  have hN : t.val < 512 := lt_of_lt_of_eq t.isLt (show cfg0.N = 512 from N_0)
  show (cfg0.win 4).cut (grid0.coords t) ((dats m 0 c).after 4 t) = _
  rw [after0_4, output_odd m c t h1]
  refine funext fun (j : S512x1024.Idx) => ?_
  obtain ⟨p, q, rfl⟩ : ∃ (p : Fin 512) (q : Fin 1024), j = ix2 p q := ⟨j 0, j 1, eq_ix2 j⟩
  have hp : p.val < 512 := p.isLt
  have hq : q.val < 1024 := q.isLt
  obtain ⟨e00, e01, e10, e11, e20, e21, e30, e31, e40, e41⟩ := index_closed t
  obtain ⟨f00, f01, f10, f11, -⟩ := index_closed (before t)
  have hb : (before t).val = t.val - 1 := rfl
  have hr : t.val / 32 * 512 + p.val < 8192 := by omega
  have ho : t.val / 2 % 16 * 1024 + q.val < 16384 := by omega
  have hemb : ((cfg0.win 4).blk t).view.emb (ix2 p q)
      = (ix2 (⟨t.val / 32 * 512 + p.val, hr⟩ : Fin 8192) (⟨t.val / 2 % 16 * 1024 + q.val, ho⟩ : Fin 16384) : S8192x16384.Idx) := by
    funext a; apply Fin.ext
    match a with
    | ⟨0, _⟩ => show win0_4.index t (0 : Fin 2) * 512 + 1 * p.val = t.val / 32 * 512 + p.val; omega
    | ⟨1, _⟩ => show win0_4.index t (1 : Fin 2) * 1024 + 1 * q.val = t.val / 2 % 16 * 1024 + q.val; omega
  show k0_pay3 (k0_pay2 (xblk m c t) (wblk m c t) (k0_pay2 (xblk m c (before t)) (wblk m c (before t)) (k0_pay1 (F := Ideal))))
      (sblk m c t) (bblk m c t) (ix2 p q) = outArr m c (((cfg0.win 4).blk t).view.emb (ix2 p q))
  rw [hemb]
  refine (finish_apply (k0_pay2 (xblk m c t) (wblk m c t) (k0_pay2 (xblk m c (before t)) (wblk m c (before t)) (k0_pay1 (F := Ideal))))
    (sblk m c t) (bblk m c t) p q).trans ?_
  rw [accumulate_apply (xblk m c t) (wblk m c t) (k0_pay2 (xblk m c (before t)) (wblk m c (before t)) (k0_pay1 (F := Ideal))) p q,
    accumulate_apply (xblk m c (before t)) (wblk m c (before t)) (k0_pay1 (F := Ideal)) p q, reset_apply]
  have hx0 : ∀ k : Fin 2048, xblk m c (before t) (ix2 p k) = xarr m c (ix2 (⟨t.val / 32 * 512 + p.val, hr⟩ : Fin 8192) (lo k)) :=
    fun k => xblk_apply m c (before t) p k _ _ (by show t.val / 32 * 512 + p.val = _; omega) (by show k.val = _; omega)
  have hw0 : ∀ k : Fin 2048, wblk m c (before t) (ix2 q k) = warr m c (ix2 (⟨t.val / 2 % 16 * 1024 + q.val, ho⟩ : Fin 16384) (lo k)) :=
    fun k => wblk_apply m c (before t) q k _ _ (by show t.val / 2 % 16 * 1024 + q.val = _; omega) (by show k.val = _; omega)
  have hx1 : ∀ k : Fin 2048, xblk m c t (ix2 p k) = xarr m c (ix2 (⟨t.val / 32 * 512 + p.val, hr⟩ : Fin 8192) (hi k)) :=
    fun k => xblk_apply m c t p k _ _ (by show t.val / 32 * 512 + p.val = _; omega) (by show 2048 + k.val = _; omega)
  have hw1 : ∀ k : Fin 2048, wblk m c t (ix2 q k) = warr m c (ix2 (⟨t.val / 2 % 16 * 1024 + q.val, ho⟩ : Fin 16384) (hi k)) :=
    fun k => wblk_apply m c t q k _ _ (by show t.val / 2 % 16 * 1024 + q.val = _; omega) (by show 2048 + k.val = _; omega)
  have hs : sblk m c t (ix2 (0 : Fin 1) q) = sarr m c (ix2 (0 : Fin 1) (⟨t.val / 2 % 16 * 1024 + q.val, ho⟩ : Fin 16384)) :=
    sblk_apply m c t q _ e20 (by show t.val / 2 % 16 * 1024 + q.val = _; omega)
  have hbi : bblk m c t (ix2 (0 : Fin 1) q) = barr m c (ix2 (0 : Fin 1) (⟨t.val / 2 % 16 * 1024 + q.val, ho⟩ : Fin 16384)) :=
    bblk_apply m c t q _ e30 (by show t.val / 2 % 16 * 1024 + q.val = _; omega)
  simp only [hx0, hw0, hx1, hw1, hs, hbi]
  rfl

/-- An index of the result array is in point t's block iff each coordinate is in the block's range on its axis. -/
theorem mem_blk (t : Fin cfg0.N) (i : S8192x16384.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v3).slice (win0_4.rect t)).set ↔ _
  rw [View.set_slice_whole, Rect.mem_set_unit]
  exact Iff.rfl

/-- Every index of the result array lies in the block of an odd point: the one of its row band and column band. -/
theorem covered (i : S8192x16384.Idx) :
    ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 512 := N_0
  have ht : ((i 0).val / 512 * 16 + (i 1).val / 1024) * 2 + 1 < cfg0.N := by omega
  refine ⟨⟨((i 0).val / 512 * 16 + (i 1).val / 1024) * 2 + 1, ht⟩, (flush0_4 _).mpr (by show (((i 0).val / 512 * 16 + (i 1).val / 1024) * 2 + 1) % 2 = 1; omega), ?_⟩
  obtain ⟨-, -, -, -, -, -, -, -, e40, e41⟩ := index_closed ⟨((i 0).val / 512 * 16 + (i 1).val / 1024) * 2 + 1, ht⟩
  have v : (⟨((i 0).val / 512 * 16 + (i 1).val / 1024) * 2 + 1, ht⟩ : Fin cfg0.N).val = ((i 0).val / 512 * 16 + (i 1).val / 1024) * 2 + 1 := rfl
  rw [mem_blk]
  intro a
  match a with
  | ⟨0, _⟩ =>
    show win0_4.index _ (0 : Fin 2) * 512 ≤ (i 0).val ∧ (i 0).val < win0_4.index _ (0 : Fin 2) * 512 + 512
    rw [e40, v]; omega
  | ⟨1, _⟩ =>
    show win0_4.index _ (1 : Fin 2) * 1024 ≤ (i 1).val ∧ (i 1).val < win0_4.index _ (1 : Fin 2) * 1024 + 1024
    rw [e41, v]; omega

/-- So the 8192 × 16384 result array ends holding `outArr`. -/
theorem final_out (c : Dev nD) : (dats m 0 c).arrAt 4 cfg0.N = outArr m c :=
  (dats m 0 c).arrAt_eq_of_cover 4 (outArr m c) (flushed_eq m c) covered

end Cert.KernelIdeal.Value

end
-- ==== Proof.KernelRun.lean ====
/-
  The kernel program's run, with its result named in the reference's arrangement.

  Around the call the program only re-reads arrays under other shapes: `x` as 8192 × 4096 (row r is
  `x[r / 2048, r % 2048, :]`), the scale and the bias as single rows of 16384, and the 8192 × 16384 result as
  4 × 2048 × 16384. A reshape keeps row-major positions, so entry (b, s, o) of the program's result is entry
  (2048·b + s, o) of the call's result, and that is the kernel's arrangement of the specification's entry
  (b, s, o). On real inputs it equals the reference's arrangement.
-/
import proofs.«102938_j26182120637007_1_alg».proof.Proof.KernelValue

noncomputable section

open scoped BigOperators

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Blocks Cert.KernelIdeal.Value
open Idealize.ShloMosaic.ValueIdx Cert.ScaleThroughSum Cert.ScaledLinear

variable (m : (ℓ : Loc nD τ sig) → Buf (Elt Ideal) ℓ) (ρ : Dev nD → PrngReg)

/-- The program's result is the call's 8192 × 16384 result re-read as 4 × 2048 × 16384. -/
theorem result_eq (c : Dev nD) :
    Pipeline.afterTail₀ cfgs (dats m) 0 (V0 m) [hostOps1] c main_v4
      = shapeCast S4x2048x16384 (outArr m c) shapeCasts_S8192x16384_S4x2048x16384 := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v3)
      = outArr m c :=
    (Pipeline.withArrays_arr spec0 launch0.win.arr_inj c _ _ 4).trans (final_out m c)
  rw [hA]
  rfl

/-- The call's first operand is `x` re-read as 8192 × 4096; -/
theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl
/-- its second the weight as launched; -/
theorem warr_eq (c : Dev nD) : warr m c = (m ((c : Thread nD τ).loc main_arg1)) := V_main_arg1 m c
/-- its third the scale re-read as one row; -/
theorem sarr_eq (c : Dev nD) :
    sarr m c = shapeCast S1x16384 (m ((c : Thread nD τ).loc main_arg2)) shapeCasts_S16384_S1x16384 := by
  show StableHlo.after hostOps0 (fun b => m (c, b)) (Proc.devRef .tc main_v1) = _
  after_results
  rfl
/-- its fourth the bias re-read as one row. -/
theorem barr_eq (c : Dev nD) :
    barr m c = shapeCast S1x16384 (m ((c : Thread nD τ).loc main_arg3)) shapeCasts_S16384_S1x16384 := by
  show StableHlo.after hostOps0 (fun b => m (c, b)) (Proc.devRef .tc main_v2) = _
  after_results
  rfl

/-- Row 2048·b + s of the 8192 × 4096 view of `x` is `x[b, s, :]`. -/
theorem xarr_apply (c : Dev nD) (b : Fin 4) (s : Fin 2048) (k : Fin 4096) (r : Fin 8192) (hr : r.val = b.val * 2048 + s.val) :
    xarr m c (ix2 r k) = (m ((c : Thread nD τ).loc main_arg0)) (ix3 b s k) := by
  rw [xarr_eq]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr])

/-- Entry (0, o) of the scale row is `scale[o]`; -/
theorem sarr_apply (c : Dev nD) (o : Fin 16384) : sarr m c (ix2 (0 : Fin 1) o) = (m ((c : Thread nD τ).loc main_arg2)) (ix1 o) := by
  rw [sarr_eq]
  exact shapeCast_a_1a_apply _ shapeCasts_S16384_S1x16384 (0 : Fin 1) o
/-- and of the bias row `bias[o]`. -/
theorem barr_apply (c : Dev nD) (o : Fin 16384) : barr m c (ix2 (0 : Fin 1) o) = (m ((c : Thread nD τ).loc main_arg3)) (ix1 o) := by
  rw [barr_eq]
  exact shapeCast_a_1a_apply _ shapeCasts_S16384_S1x16384 (0 : Fin 1) o

/-- Entry (b, s, o) of the program's result is the kernel's arrangement of the specification's entry. -/
theorem result_apply (c : Dev nD) (b : Fin 4) (s : Fin 2048) (o : Fin 16384) :
    shapeCast S4x2048x16384 (outArr m c) shapeCasts_S8192x16384_S4x2048x16384 (ix3 b s o)
      = kernelEntry (m ((c : Thread nD τ).loc main_arg0)) (m ((c : Thread nD τ).loc main_arg1)) (m ((c : Thread nD τ).loc main_arg2)) (m ((c : Thread nD τ).loc main_arg3)) b s o := by
  have hb : b.val < 4 := b.isLt
  have hs : s.val < 2048 := s.isLt
  have hr : b.val * 2048 + s.val < 8192 := by omega
  refine (shapeCast_apply (outArr m c) shapeCasts_S8192x16384_S4x2048x16384 (ix3 b s o)
    (ix2 (⟨b.val * 2048 + s.val, hr⟩ : Fin 8192) o) (by
      rw [Shape.rowMajor_val_three, Shape.rowMajor_val_two]
      show (b.val * 2048 + s.val) * 16384 + o.val = (b.val * 2048 + s.val) * 16384 + o.val
      rfl)).trans ?_
  show entry (xarr m c) (warr m c) (sarr m c) (barr m c) (⟨b.val * 2048 + s.val, hr⟩ : Fin 8192) o = _
  unfold entry kernelEntry
  have hx : ∀ k : Fin 4096, xarr m c (ix2 (⟨b.val * 2048 + s.val, hr⟩ : Fin 8192) k) = (m ((c : Thread nD τ).loc main_arg0)) (ix3 b s k) :=
    fun k => xarr_apply m c b s k _ rfl
  have hw : ∀ k : Fin 4096, warr m c (ix2 o k) = (m ((c : Thread nD τ).loc main_arg1)) (ix2 o k) := fun k => congrFun (warr_eq m c) (ix2 o k)
  have hsc : sarr m c (ix2 (0 : Fin 1) o) = (m ((c : Thread nD τ).loc main_arg2)) (ix1 o) := sarr_apply m c o
  have hbi : barr m c (ix2 (0 : Fin 1) o) = (m ((c : Thread nD τ).loc main_arg3)) (ix1 o) := barr_apply m c o
  simp only [hx, hw, hsc, hbi]

/-- THE RUN. On real inputs every weakly fair execution of the kernel program terminates with its result at the
    specification's array (in the reference's arrangement) and its four arguments unchanged. -/
theorem run
    (hreal : ∀ c : Dev nD, (∀ i, ∃ r : ℝ, (m ((c : Thread nD τ).loc main_arg0)) i = (r : EReal)) ∧ (∀ i, ∃ r : ℝ, (m ((c : Thread nD τ).loc main_arg1)) i = (r : EReal))
      ∧ (∀ i, ∃ r : ℝ, (m ((c : Thread nD τ).loc main_arg2)) i = (r : EReal)) ∧ (∀ i, ∃ r : ℝ, (m ((c : Thread nD τ).loc main_arg3)) i = (r : EReal))) :
    θ_run defs (onTc (τ := τ) (main (F := Ideal))) ⟨m, fun _ => 0, ρ⟩ fun r => ∀ c : Dev nD,
      r.2.mem ((c : Thread nD τ).loc main_v4)
          = referenceArray (m ((c : Thread nD τ).loc main_arg0)) (m ((c : Thread nD τ).loc main_arg1)) (m ((c : Thread nD τ).loc main_arg2)) (m ((c : Thread nD τ).loc main_arg3))
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3)) :=
  (θ_run defs _ _).mono (fun _ h c =>
    ⟨(((h c).2 main_v4 (Pipeline.mem_restRefs_of main_v4 (by decide) (by decide))).trans (result_eq m c)).trans
        (funext fun i => by
          obtain ⟨b, s, o, rfl⟩ : ∃ (b : Fin 4) (s : Fin 2048) (o : Fin 16384), i = ix3 b s o := ⟨i 0, i 1, i 2, eq_ix3 i⟩
          obtain ⟨h0, h1, h2, h3⟩ := hreal c
          exact (result_apply m c b s o).trans (kernelEntry_eq_referenceEntry _ _ _ _ h0 h1 h2 h3 b s o)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Run

end
-- ==== Proof.ReferenceValue.lean ====
/-
  The reference's result is the specification's array.

  Read one operation at a time: the scale is broadcast along the weight's rows and multiplied in, `x` is contracted
  with the scaled weight along the last axis of both, and the bias is broadcast over the two leading axes and added.
  At entry (b, s, o) that is the sum over k of `x[b, s, k] · (weight[o, k] · scale[o])`, plus `bias[o]`.
-/
import proofs.«102938_j26182120637007_1_alg».proof.Proof.Gen.ReferenceIdeal.Read
import proofs.«102938_j26182120637007_1_alg».proof.Proof.ScaledLinear

noncomputable section

open scoped BigOperators

namespace Cert.ReferenceIdeal.RefValue

open Cert.ReferenceIdeal Cert.ReferenceIdeal.Read Idealize.ShloMosaic Idealize.ShloMosaic.ValueIdx Cert.ScaledLinear

/-- The reference's last stage, as a function of the four argument arrays, is the specification's array. -/
theorem reference_is_spec (x0 : (⟨S4x2048x4096, .f32⟩ : BufTy).Contents (Elt Ideal)) (x1 : (⟨S16384x4096, .f32⟩ : BufTy).Contents (Elt Ideal))
    (x2 x3 : (⟨S16384, .f32⟩ : BufTy).Contents (Elt Ideal)) :
    val_main_v6 (F := Ideal) x0 x1 x2 x3 = referenceArray x0 x1 x2 x3 := by
  funext i
  obtain ⟨b, s, o, rfl⟩ : ∃ (b : Fin 4) (s : Fin 2048) (o : Fin 16384), i = ix3 b s o := ⟨i 0, i 1, i 2, eq_ix3 i⟩
  rw [val_main_v6_apply, val_main_v3_apply, val_main_v5_apply, val_main_v4_apply]
  simp only [val_main_v2_apply, val_main_v1_apply, val_main_v0_apply]
  have e1 : ∀ k : Fin 4096, lidx_main_v3 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v3 (ix3 b s o) k = ix2 o k := fun k => funext fun a => Fin.ext (by
    match a with
    | ⟨0, _⟩ => rfl
    | ⟨1, _⟩ => rfl)
  have e3 : ∀ k : Fin 4096, idx_main_v0 (idx_main_v1 (ix2 o k)) = ix1 o := fun k => funext fun a => Fin.ext (by
    match a with
    | ⟨0, _⟩ => rfl)
  have e4 : idx_main_v4 (idx_main_v5 (ix3 b s o)) = ix1 o := funext fun a => Fin.ext (by
    match a with
    | ⟨0, _⟩ => rfl)
  simp only [e1, e2, e3, e4]
  rfl

end Cert.ReferenceIdeal.RefValue

end
-- ==== Proof.lean ====
/-
  A linear layer with a per-output-channel scale on the weight: `out[b, s, o] = Σ_k x[b, s, k] · (weight[o, k] · scale[o]) + bias[o]`,
  for `x` of shape 4 × 2048 × 4096 and a weight of shape 16384 × 4096.

  The reference scales the weight row by row, contracts `x` with it over all 4096 positions at once and adds the
  bias. The kernel tiles the 8192 × 16384 result in 512 × 1024 blocks and walks the contracted axis in two halves:
  it accumulates the raw product `x · weightᵀ` of each half into a scratch block that starts at zero, and only
  after the second half multiplies by the scale of each column and adds its bias. The two agree because the scale
  of an output channel does not depend on the contracted position, so it can be taken out of the sum — a law of
  the real numbers that the extended reals do not share at the infinities, which is where the precondition
  (every input entry finite) is used. The narrowing of the operands to bf16 before the product is the identity
  on extended reals, and the idealized kernel is the kernel's own operations read over the extended reals, none
  rewritten, so there is nothing to preserve.

  The modules: ScaleThroughSum (the law on the reals), ScaledLinear (the result entry by entry in both
  arrangements), FiniteInputs (the precondition read back as "every entry is real"), BodyPieces and BodyValues
  (what the kernel body stores at a grid point), Blocks (where a block sits in its array), KernelValue and
  KernelRun (the kernel program's result array), ReferenceValue (the reference's).
-/
import proofs.«102938_j26182120637007_1_alg».proof.Defs
import proofs.«102938_j26182120637007_1_alg».proof.Proof.Gen.Kernel
import proofs.«102938_j26182120637007_1_alg».proof.Proof.Gen.Kernel.Skeleton
import proofs.«102938_j26182120637007_1_alg».proof.Proof.Gen.Kernel.Launch
import proofs.«102938_j26182120637007_1_alg».proof.Proof.Gen.Kernel.Points
import proofs.«102938_j26182120637007_1_alg».proof.Proof.Gen.Kernel.Frame
import proofs.«102938_j26182120637007_1_alg».proof.Proof.Gen.KernelIdeal
import proofs.«102938_j26182120637007_1_alg».proof.Proof.Gen.KernelIdeal.Skeleton
import proofs.«102938_j26182120637007_1_alg».proof.Proof.Gen.KernelIdeal.Launch
import proofs.«102938_j26182120637007_1_alg».proof.Proof.Gen.KernelIdeal.Points
import proofs.«102938_j26182120637007_1_alg».proof.Proof.Gen.KernelIdeal.Frame
import proofs.«102938_j26182120637007_1_alg».proof.Proof.Gen.ReferenceIdeal
import proofs.«102938_j26182120637007_1_alg».proof.Proof.Gen.Pre_finite_inputs
import proofs.«102938_j26182120637007_1_alg».proof.Proof.Gen.ReferenceIdeal.Run
import proofs.«102938_j26182120637007_1_alg».proof.Proof.Gen.ReferenceIdeal.Read
import proofs.«102938_j26182120637007_1_alg».proof.Proof.FiniteInputs
import proofs.«102938_j26182120637007_1_alg».proof.Proof.KernelRun
import proofs.«102938_j26182120637007_1_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the ideal instance. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel rewrites no operation of the kernel: nothing to preserve. -/
theorem preserves : Cert.preserves_Kernel_KernelIdeal := trivial

/-- Both programs end with the specification's array of the shared arguments: the kernel's run names it under the
    precondition (every entry real), the reference's stages compose to it, and the arguments agree. -/
theorem algebraic : Cert.algebraic_KernelIdeal_ReferenceIdeal := by
  intro m ρ m' ρ' hpre hagree
  have hreal := fun c => Cert.FiniteInputs.all_real _ _ _ _ (hpre c)
  refine ⟨fun c => Cert.ScaledLinear.referenceArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Run.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.ReferenceIdeal.RefValue.reference_is_spec,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
